-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x300 : Shape := ⟨2, ![8192, 300]⟩
abbrev S1000000x1 : Shape := ⟨2, ![1000000, 1]⟩
abbrev S100x1 : Shape := ⟨2, ![100, 1]⟩
abbrev S1000000x64 : Shape := ⟨2, ![1000000, 64]⟩
abbrev S100x64 : Shape := ⟨2, ![100, 64]⟩
abbrev S1 : Shape := ⟨1, ![1]⟩
abbrev S_ : Shape := ⟨0, ![]⟩

class Facts : Prop where
  bcast_S_S8192x300 : S_.BroadcastsInDim S8192x300 (![] : Fin 0 → Fin S8192x300.rank)
  reducesTo_S8192x300_S_d0_1 : S8192x300.ReducesTo [0, 1] S_
  h_S_ : 0 < S_.numel
  bcast_S_S1000000x1 : S_.BroadcastsInDim S1000000x1 (![] : Fin 0 → Fin S1000000x1.rank)
  reducesTo_S1000000x1_S_d0_1 : S1000000x1.ReducesTo [0, 1] S_
  bcast_S_S100x1 : S_.BroadcastsInDim S100x1 (![] : Fin 0 → Fin S100x1.rank)
  reducesTo_S100x1_S_d0_1 : S100x1.ReducesTo [0, 1] S_
  bcast_S_S1000000x64 : S_.BroadcastsInDim S1000000x64 (![] : Fin 0 → Fin S1000000x64.rank)
  reducesTo_S1000000x64_S_d0_1 : S1000000x64.ReducesTo [0, 1] S_
  bcast_S_S100x64 : S_.BroadcastsInDim S100x64 (![] : Fin 0 → Fin S100x64.rank)
  reducesTo_S100x64_S_d0_1 : S100x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S100x64 .f32) (main_arg5 : FVec F S1 .f32) (main_v13 : IVec S_ 1) (main_v16 : IVec S1000000x64 1) : IVec S_ 1 :=
  let main_c_5 : IVec S_ 1 := constantI S_ 1 1#1
  let main_v17 : IVec S_ 1 := (fun x v => Host.reduce IntOp.andi x v reducesTo_S1000000x64_S_d0_1 h_S_) main_v16 main_c_5
  let main_v18 : IVec S_ 1 := andi main_v13 main_v17
  let main_v19 : FVec F S100x64 .f32 := Host.absf main_arg4
  let main_cst_6 : FVec F S_ .f32 := constant S_ .f32 0x7F800000#32
  let main_v20 : FVec F S100x64 .f32 := broadcastInDim S100x64 ![] bcast_S_S100x64 main_cst_6
  let main_v21 : IVec S100x64 1 := cmpf .olt main_v19 main_v20
  let main_c_7 : IVec S_ 1 := constantI S_ 1 1#1
  let main_v22 : IVec S_ 1 := (fun x v => Host.reduce IntOp.andi x v reducesTo_S100x64_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S8192x300 .f32) (main_arg1 : FVec F S1000000x1 .f32) (main_arg2 : FVec F S100x1 .f32) (main_arg3 : FVec F S1000000x64 .f32) (main_arg4 : FVec F S100x64 .f32) (main_arg5 : FVec F S1 .f32) : IVec S_ 1 :=
  let main_v0 : FVec F S8192x300 .f32 := Host.absf main_arg0
  let main_cst : FVec F S_ .f32 := constant S_ .f32 0x7F800000#32
  let main_v1 : FVec F S8192x300 .f32 := broadcastInDim S8192x300 ![] bcast_S_S8192x300 main_cst
  let main_v2 : IVec S8192x300 1 := cmpf .olt main_v0 main_v1
  let main_c : IVec S_ 1 := constantI S_ 1 1#1
  let main_v3 : IVec S_ 1 := (fun x v => Host.reduce IntOp.andi x v reducesTo_S8192x300_S_d0_1 h_S_) main_v2 main_c
  let main_v4 : FVec F S1000000x1 .f32 := Host.absf main_arg1
  let main_cst_0 : FVec F S_ .f32 := constant S_ .f32 0x7F800000#32
  let main_v5 : FVec F S1000000x1 .f32 := broadcastInDim S1000000x1 ![] bcast_S_S1000000x1 main_cst_0
  let main_v6 : IVec S1000000x1 1 := cmpf .olt main_v4 main_v5
  let main_c_1 : IVec S_ 1 := constantI S_ 1 1#1
  let main_v7 : IVec S_ 1 := (fun x v => Host.reduce IntOp.andi x v reducesTo_S1000000x1_S_d0_1 h_S_) main_v6 main_c_1
  let main_v8 : IVec S_ 1 := andi main_v3 main_v7
  let main_v9 : FVec F S100x1 .f32 := Host.absf main_arg2
  let main_cst_2 : FVec F S_ .f32 := constant S_ .f32 0x7F800000#32
  let main_v10 : FVec F S100x1 .f32 := broadcastInDim S100x1 ![] bcast_S_S100x1 main_cst_2
  let main_v11 : IVec S100x1 1 := cmpf .olt main_v9 main_v10
  let main_c_3 : IVec S_ 1 := constantI S_ 1 1#1
  let main_v12 : IVec S_ 1 := (fun x v => Host.reduce IntOp.andi x v reducesTo_S100x1_S_d0_1 h_S_) main_v11 main_c_3
  let main_v13 : IVec S_ 1 := andi main_v8 main_v12
  let main_v14 : FVec F S1000000x64 .f32 := Host.absf main_arg3
  let main_cst_4 : FVec F S_ .f32 := constant S_ .f32 0x7F800000#32
  let main_v15 : FVec F S1000000x64 .f32 := broadcastInDim S1000000x64 ![] bcast_S_S1000000x64 main_cst_4
  let main_v16 : IVec S1000000x64 1 := cmpf .olt main_v14 main_v15
  fn_part1 (F := F) main_arg4 main_arg5 main_v13 main_v16
-- ==== Kernel.lean ====
abbrev S8192x300 : Shape := ⟨2, ![8192, 300]⟩
abbrev S1000000x1 : Shape := ⟨2, ![1000000, 1]⟩
abbrev S100x1 : Shape := ⟨2, ![100, 1]⟩
abbrev S1000000x64 : Shape := ⟨2, ![1000000, 64]⟩
abbrev S100x64 : Shape := ⟨2, ![100, 64]⟩
abbrev S1 : Shape := ⟨1, ![1]⟩
abbrev S8192x200 : Shape := ⟨2, ![8192, 200]⟩
abbrev S8192x100 : Shape := ⟨2, ![8192, 100]⟩
abbrev S_ : Shape := ⟨0, ![]⟩
abbrev S8192x200x1 : Shape := ⟨3, ![8192, 200, 1]⟩
abbrev S8192x200x64 : Shape := ⟨3, ![8192, 200, 64]⟩
abbrev S8192x200x2 : Shape := ⟨3, ![8192, 200, 2]⟩
abbrev S8192x1 : Shape := ⟨2, ![8192, 1]⟩
abbrev S128x200x64 : Shape := ⟨3, ![128, 200, 64]⟩
abbrev S128x200 : Shape := ⟨2, ![128, 200]⟩
abbrev S128x100 : Shape := ⟨2, ![128, 100]⟩
abbrev S128x1 : Shape := ⟨2, ![128, 1]⟩
abbrev S128 : Shape := ⟨1, ![128]⟩
abbrev S128x64 : Shape := ⟨2, ![128, 64]⟩
abbrev S1x1 : Shape := ⟨2, ![1, 1]⟩

abbrev nBuf : Space → Nat
  | .hbm => 33
  | .vmem => 11
  | .smem => 0
  | _ => 0

abbrev bufTy : (tb : Table) → Fin (tcTables nBuf tb) → BufTy
  | .hbm, ⟨0, _⟩ => ⟨S8192x300, .f32⟩
  | .hbm, ⟨1, _⟩ => ⟨S1000000x1, .f32⟩
  | .hbm, ⟨2, _⟩ => ⟨S100x1, .f32⟩
  | .hbm, ⟨3, _⟩ => ⟨S1000000x64, .f32⟩
  | .hbm, ⟨4, _⟩ => ⟨S100x64, .f32⟩
  | .hbm, ⟨5, _⟩ => ⟨S1, .f32⟩
  | .hbm, ⟨6, _⟩ => ⟨S8192x200, .f32⟩
  | .hbm, ⟨7, _⟩ => ⟨S8192x200, .i32⟩
  | .hbm, ⟨8, _⟩ => ⟨S8192x100, .f32⟩
  | .hbm, ⟨9, _⟩ => ⟨S_, .i32⟩
  | .hbm, ⟨10, _⟩ => ⟨S8192x200, .i32⟩
  | .hbm, ⟨11, _⟩ => ⟨S8192x200, .i1⟩
  | .hbm, ⟨12, _⟩ => ⟨S_, .i32⟩
  | .hbm, ⟨13, _⟩ => ⟨S8192x200, .i32⟩
  | .hbm, ⟨14, _⟩ => ⟨S8192x200, .i32⟩
  | .hbm, ⟨15, _⟩ => ⟨S8192x200, .i32⟩
  | .hbm, ⟨16, _⟩ => ⟨S8192x200x1, .i32⟩
  | .hbm, ⟨17, _⟩ => ⟨S8192x200x64, .f32⟩
  | .hbm, ⟨18, _⟩ => ⟨S_, .i32⟩
  | .hbm, ⟨19, _⟩ => ⟨S8192x200, .i32⟩
  | .hbm, ⟨20, _⟩ => ⟨S8192x200, .i1⟩
  | .hbm, ⟨21, _⟩ => ⟨S_, .i32⟩
  | .hbm, ⟨22, _⟩ => ⟨S8192x200, .i32⟩
  | .hbm, ⟨23, _⟩ => ⟨S8192x200, .i32⟩
  | .hbm, ⟨24, _⟩ => ⟨S8192x200, .i32⟩
  | .hbm, ⟨25, _⟩ => ⟨S_, .i32⟩
  | .hbm, ⟨26, _⟩ => ⟨S8192x200, .i32⟩
  | .hbm, ⟨27, _⟩ => ⟨S8192x200, .i32⟩
  | .hbm, ⟨28, _⟩ => ⟨S8192x200x1, .i32⟩
  | .hbm, ⟨29, _⟩ => ⟨S8192x200x1, .i32⟩
  | .hbm, ⟨30, _⟩ => ⟨S8192x200x2, .i32⟩
  | .hbm, ⟨31, _⟩ => ⟨S8192x200, .f32⟩
  | .hbm, ⟨32, _⟩ => ⟨S8192x1, .f32⟩
  | .local _ .vmem, ⟨0, _⟩ => ⟨S128x200x64, .f32⟩
  | .local _ .vmem, ⟨1, _⟩ => ⟨S128x200x64, .f32⟩
  | .local _ .vmem, ⟨2, _⟩ => ⟨S128x200, .f32⟩
  | .local _ .vmem, ⟨3, _⟩ => ⟨S128x200, .f32⟩
  | .local _ .vmem, ⟨4, _⟩ => ⟨S128x100, .f32⟩
  | .local _ .vmem, ⟨5, _⟩ => ⟨S128x100, .f32⟩
  | .local _ .vmem, ⟨6, _⟩ => ⟨S100x64, .f32⟩
  | .local _ .vmem, ⟨7, _⟩ => ⟨S100x1, .f32⟩
  | .local _ .vmem, ⟨8, _⟩ => ⟨S1, .f32⟩
  | .local _ .vmem, ⟨9, _⟩ => ⟨S128x1, .f32⟩
  | .local _ .vmem, ⟨10, _⟩ => ⟨S128x1, .f32⟩
  | _, _ => ⟨S8192x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S100x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S8192x300_S8192x200_0_0 : S8192x300.Slices ![0, 0] S8192x200
  slices_S8192x300_S8192x100_0_200 : S8192x300.Slices ![0, 200] S8192x100
  bcast_S_S8192x200 : S_.BroadcastsInDim S8192x200 (![] : Fin 0 → Fin S8192x200.rank)
  bcast_S8192x200_S8192x200x1_0_1 : S8192x200.BroadcastsInDim S8192x200x1 (![0, 1] : Fin 2 → Fin S8192x200x1.rank)
  concatenates_S8192x200x1_S8192x200x1_S8192x200x2_d2 : Shape.Concatenates [S8192x200x1, S8192x200x1] S8192x200x2 2
  inb_S128x200x64_S128x200x64_0_0_0 : ∀ a, (![0, 0, 0] : Fin 3 → Nat) a + S128x200x64.size a ≤ S128x200x64.size a
  h_S128x200x64 : 0 < S128x200x64.numel
  shapeCasts_S128x200x64_S128x200x64 : S128x200x64.ShapeCasts S128x200x64
  inb_S128x200_S128x200_0_0 : ∀ a, (![0, 0] : Fin 2 → Nat) a + S128x200.size a ≤ S128x200.size a
  h_S128x200 : 0 < S128x200.numel
  shapeCasts_S128x200_S128x200 : S128x200.ShapeCasts S128x200
  inb_S128x100_S128x100_0_0 : ∀ a, (![0, 0] : Fin 2 → Nat) a + S128x100.size a ≤ S128x100.size a
  h_S128x100 : 0 < S128x100.numel
  shapeCasts_S128x100_S128x100 : S128x100.ShapeCasts S128x100
  inb_S100x64_S100x64_0_0 : ∀ a, (![0, 0] : Fin 2 → Nat) a + S100x64.size a ≤ S100x64.size a
  h_S100x64 : 0 < S100x64.numel
  inb_S100x1_S100x1_0_0 : ∀ a, (![0, 0] : Fin 2 → Nat) a + S100x1.size a ≤ S100x1.size a
  h_S100x1 : 0 < S100x1.numel
  reduces_S128x200_S128 : S128x200.Reduces [1] S128
  shapeCasts_S128_S128x1 : S128.ShapeCasts S128x1
  reduces_S128x200x64_S128x64 : S128x200x64.Reduces [1] S128x64
  reduces_S128x64_S128 : S128x64.Reduces [1] S128
  inb_S1_S1_0 : ∀ a, (![0] : Fin 1 → Nat) a + S1.size a ≤ S1.size a
  h_S1 : 0 < S1.numel
  shapeCasts_S1_S1x1 : S1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  gather_S1000000x64_S8192x200x1_S8192x200x64_2_0_n_n_0_2_164_wf : GatherDims.WF S1000000x64 S8192x200x1 S8192x200x64 [2] [0] [] [0] [] 2 ![1, 64]
  gather_S1000000x1_S8192x200x2_S8192x200_n_01_n_n_01_2_11_wf : GatherDims.WF S1000000x1 S8192x200x2 S8192x200 [] [0, 1] [] [0, 1] [] 2 ![1, 1]
  dot_S128x100_S100x1_S128x1_1_0_0_1_n_n_wf : DotDims.WF S128x100 S100x1 S128x1 [1] [0] [0] [1] [] []
  dot_S128x100_S100x64_S128x64_1_0_0_1_n_n_wf : DotDims.WF S128x100 S100x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x200x64.size a ≤ S8192x200x64.size a
  hwx0_0 : ∀ i : grid0.Coords, EltTy.bits .f32 = 32 ∨ (Rect.block (s := S8192x200x64) S128x200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x200.size a ≤ S8192x200.size a
  hwx0_1 : ∀ i : grid0.Coords, EltTy.bits .f32 = 32 ∨ (Rect.block (s := S8192x200) S128x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x100.size a ≤ S8192x100.size a
  hwx0_2 : ∀ i : grid0.Coords, EltTy.bits .f32 = 32 ∨ (Rect.block (s := S8192x100) S128x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x64.size a ≤ S100x64.size a
  hwx0_3 : ∀ i : grid0.Coords, EltTy.bits .f32 = 32 ∨ (Rect.block (s := S100x64) S100x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x1.size a ≤ S100x1.size a
  hwx0_4 : ∀ i : grid0.Coords, EltTy.bits .f32 = 32 ∨ (Rect.block (s := S100x1) S100x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S8192x1.size a
  hwx0_6 : ∀ i : grid0.Coords, EltTy.bits .f32 = 32 ∨ (Rect.block (s := S8192x1) S128x1.size (cc0_transform_6 i) (hinb0_6 i)).WholeWords (EltTy.packing .f32)

variable [Facts₀]

def gather_S1000000x64_S8192x200x1_S8192x200x64_2_0_n_n_0_2_164 : GatherDims S1000000x64 S8192x200x1 S8192x200x64 where
  offsetDims := [2]
  collapsedSliceDims := [0]
  operandBatchingDims := []
  startIndicesBatchingDims := []
  startIndexMap := [0]
  indexVectorDim := 2
  sliceSizes := ![1, 64]
  wf := gather_S1000000x64_S8192x200x1_S8192x200x64_2_0_n_n_0_2_164_wf
def gather_S1000000x1_S8192x200x2_S8192x200_n_01_n_n_01_2_11 : GatherDims S1000000x1 S8192x200x2 S8192x200 where
  offsetDims := []
  collapsedSliceDims := [0, 1]
  operandBatchingDims := []
  startIndicesBatchingDims := []
  startIndexMap := [0, 1]
  indexVectorDim := 2
  sliceSizes := ![1, 1]
  wf := gather_S1000000x1_S8192x200x2_S8192x200_n_01_n_n_01_2_11_wf
def dot_S128x100_S100x1_S128x1_1_0_0_1_n_n : DotDims S128x100 S100x1 S128x1 where
  lhsContracting := [1]
  rhsContracting := [0]
  lhsNonContracting := [0]
  rhsNonContracting := [1]
  lhsBatch := []
  rhsBatch := []
  wf := dot_S128x100_S100x1_S128x1_1_0_0_1_n_n_wf
def dot_S128x100_S100x64_S128x64_1_0_0_1_n_n : DotDims S128x100 S100x64 S128x64 where
  lhsContracting := [1]
  rhsContracting := [0]
  lhsNonContracting := [0]
  rhsNonContracting := [1]
  lhsBatch := []
  rhsBatch := []
  wf := dot_S128x100_S100x64_S128x64_1_0_0_1_n_n_wf

abbrev win0_0 : Pipeline.Window sig grid0 :=
  Pipeline.Window.ofSpec (Memref.whole main_v9) S128x200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S128x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S100x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S100x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S128x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x300 : Shape := ⟨2, ![8192, 300]⟩
abbrev S1000000x1 : Shape := ⟨2, ![1000000, 1]⟩
abbrev S100x1 : Shape := ⟨2, ![100, 1]⟩
abbrev S1000000x64 : Shape := ⟨2, ![1000000, 64]⟩
abbrev S100x64 : Shape := ⟨2, ![100, 64]⟩
abbrev S1 : Shape := ⟨1, ![1]⟩
abbrev S8192x200 : Shape := ⟨2, ![8192, 200]⟩
abbrev S8192x100 : Shape := ⟨2, ![8192, 100]⟩
abbrev S_ : Shape := ⟨0, ![]⟩
abbrev S8192x200x1 : Shape := ⟨3, ![8192, 200, 1]⟩
abbrev S8192x200x2 : Shape := ⟨3, ![8192, 200, 2]⟩
abbrev S8192 : Shape := ⟨1, ![8192]⟩
abbrev S8192x1 : Shape := ⟨2, ![8192, 1]⟩
abbrev S8192x200x64 : Shape := ⟨3, ![8192, 200, 64]⟩
abbrev S8192x100x1 : Shape := ⟨3, ![8192, 100, 1]⟩
abbrev S1x100x64 : Shape := ⟨3, ![1, 100, 64]⟩
abbrev S8192x100x64 : Shape := ⟨3, ![8192, 100, 64]⟩
abbrev S8192x64 : Shape := ⟨2, ![8192, 64]⟩

abbrev nBuf : Space → Nat
  | .hbm => 67
  | .vmem => 0
  | .smem => 0
  | _ => 0

abbrev bufTy : (tb : Table) → Fin (tcTables nBuf tb) → BufTy
  | .hbm, ⟨0, _⟩ => ⟨S8192x300, .f32⟩
  | .hbm, ⟨1, _⟩ => ⟨S1000000x1, .f32⟩
  | .hbm, ⟨2, _⟩ => ⟨S100x1, .f32⟩
  | .hbm, ⟨3, _⟩ => ⟨S1000000x64, .f32⟩
  | .hbm, ⟨4, _⟩ => ⟨S100x64, .f32⟩
  | .hbm, ⟨5, _⟩ => ⟨S1, .f32⟩
  | .hbm, ⟨6, _⟩ => ⟨S8192x200, .f32⟩
  | .hbm, ⟨7, _⟩ => ⟨S8192x200, .i32⟩
  | .hbm, ⟨8, _⟩ => ⟨S8192x100, .f32⟩
  | .hbm, ⟨9, _⟩ => ⟨S_, .i32⟩
  | .hbm, ⟨10, _⟩ => ⟨S8192x200, .i32⟩
  | .hbm, ⟨11, _⟩ => ⟨S8192x200, .i1⟩
  | .hbm, ⟨12, _⟩ => ⟨S_, .i32⟩
  | .hbm, ⟨13, _⟩ => ⟨S8192x200, .i32⟩
  | .hbm, ⟨14, _⟩ => ⟨S8192x200, .i32⟩
  | .hbm, ⟨15, _⟩ => ⟨S8192x200, .i32⟩
  | .hbm, ⟨16, _⟩ => ⟨S_, .i32⟩
  | .hbm, ⟨17, _⟩ => ⟨S8192x200, .i32⟩
  | .hbm, ⟨18, _⟩ => ⟨S8192x200, .i32⟩
  | .hbm, ⟨19, _⟩ => ⟨S8192x200x1, .i32⟩
  | .hbm, ⟨20, _⟩ => ⟨S8192x200x1, .i32⟩
  | .hbm, ⟨21, _⟩ => ⟨S8192x200x2, .i32⟩
  | .hbm, ⟨22, _⟩ => ⟨S8192x200, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S_, .i32⟩
  | .hbm, ⟨30, _⟩ => ⟨S8192x200, .i32⟩
  | .hbm, ⟨31, _⟩ => ⟨S8192x200, .i1⟩
  | .hbm, ⟨32, _⟩ => ⟨S_, .i32⟩
  | .hbm, ⟨33, _⟩ => ⟨S8192x200, .i32⟩
  | .hbm, ⟨34, _⟩ => ⟨S8192x200, .i32⟩
  | .hbm, ⟨35, _⟩ => ⟨S8192x200, .i32⟩
  | .hbm, ⟨36, _⟩ => ⟨S8192x200x1, .i32⟩
  | .hbm, ⟨37, _⟩ => ⟨S8192x200x64, .f32⟩
  | .hbm, ⟨38, _⟩ => ⟨S8192x100x1, .f32⟩
  | .hbm, ⟨39, _⟩ => ⟨S1x100x64, .f32⟩
  | .hbm, ⟨40, _⟩ => ⟨S8192x100x64, .f32⟩
  | .hbm, ⟨41, _⟩ => ⟨S8192x100x64, .f32⟩
  | .hbm, ⟨42, _⟩ => ⟨S8192x100x64, .f32⟩
  | .hbm, ⟨43, _⟩ => ⟨S_, .f32⟩
  | .hbm, ⟨44, _⟩ => ⟨S8192x64, .f32⟩
  | .hbm, ⟨45, _⟩ => ⟨S_, .f32⟩
  | .hbm, ⟨46, _⟩ => ⟨S8192x64, .f32⟩
  | .hbm, ⟨47, _⟩ => ⟨S8192x64, .f32⟩
  | .hbm, ⟨48, _⟩ => ⟨S8192x200x64, .f32⟩
  | .hbm, ⟨49, _⟩ => ⟨S_, .f32⟩
  | .hbm, ⟨50, _⟩ => ⟨S8192x64, .f32⟩
  | .hbm, ⟨51, _⟩ => ⟨S8192x100x64, .f32⟩
  | .hbm, ⟨52, _⟩ => ⟨S_, .f32⟩
  | .hbm, ⟨53, _⟩ => ⟨S8192x64, .f32⟩
  | .hbm, ⟨54, _⟩ => ⟨S8192x64, .f32⟩
  | .hbm, ⟨55, _⟩ => ⟨S8192x64, .f32⟩
  | .hbm, ⟨56, _⟩ => ⟨S8192x64, .f32⟩
  | .hbm, ⟨57, _⟩ => ⟨S_, .f32⟩
  | .hbm, ⟨58, _⟩ => ⟨S8192, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S8192x1, .f32⟩
  | _, _ => ⟨S8192x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S8192x300_S8192x200_0_0 : S8192x300.Slices ![0, 0] S8192x200
  slices_S8192x300_S8192x100_0_200 : S8192x300.Slices ![0, 200] S8192x100
  bcast_S_S8192x200 : S_.BroadcastsInDim S8192x200 (![] : Fin 0 → Fin S8192x200.rank)
  bcast_S8192x200_S8192x200x1_0_1 : S8192x200.BroadcastsInDim S8192x200x1 (![0, 1] : Fin 2 → Fin S8192x200x1.rank)
  concatenates_S8192x200x1_S8192x200x1_S8192x200x2_d2 : Shape.Concatenates [S8192x200x1, S8192x200x1] S8192x200x2 2
  reducesTo_S8192x200_S8192_d1 : S8192x200.ReducesTo [1] S8192
  h_S_ : 0 < S_.numel
  reducesTo_S8192x1_S8192_d1 : S8192x1.ReducesTo [1] S8192
  bcast_S8192x100_S8192x100x1_0_1 : S8192x100.BroadcastsInDim S8192x100x1 (![0, 1] : Fin 2 → Fin S8192x100x1.rank)
  bcast_S100x64_S1x100x64_1_2 : S100x64.BroadcastsInDim S1x100x64 (![1, 2] : Fin 2 → Fin S1x100x64.rank)
  bcast_S8192x100x1_S8192x100x64_0_1_2 : S8192x100x1.BroadcastsInDim S8192x100x64 (![0, 1, 2] : Fin 3 → Fin S8192x100x64.rank)
  bcast_S1x100x64_S8192x100x64_0_1_2 : S1x100x64.BroadcastsInDim S8192x100x64 (![0, 1, 2] : Fin 3 → Fin S8192x100x64.rank)
  reducesTo_S8192x200x64_S8192x64_d1 : S8192x200x64.ReducesTo [1] S8192x64
  reducesTo_S8192x100x64_S8192x64_d1 : S8192x100x64.ReducesTo [1] S8192x64
  reducesTo_S8192x64_S8192_d1 : S8192x64.ReducesTo [1] S8192
  bcast_S_S8192 : S_.BroadcastsInDim S8192 (![] : Fin 0 → Fin S8192.rank)
  shapeCasts_S1_S_ : S1.ShapeCasts S_
  bcast_S8192_S8192x1_0 : S8192.BroadcastsInDim S8192x1 (![0] : Fin 1 → Fin S8192x1.rank)
  gather_S1000000x1_S8192x200x2_S8192x200_n_01_n_n_01_2_11_wf : GatherDims.WF S1000000x1 S8192x200x2 S8192x200 [] [0, 1] [] [0, 1] [] 2 ![1, 1]
  dot_S8192x100_S100x1_S8192x1_1_0_0_1_n_n_wf : DotDims.WF S8192x100 S100x1 S8192x1 [1] [0] [0] [1] [] []
  gather_S1000000x64_S8192x200x1_S8192x200x64_2_0_n_n_0_2_164_wf : GatherDims.WF S1000000x64 S8192x200x1 S8192x200x64 [2] [0] [] [0] [] 2 ![1, 64]

variable [Facts₀]

def gather_S1000000x1_S8192x200x2_S8192x200_n_01_n_n_01_2_11 : GatherDims S1000000x1 S8192x200x2 S8192x200 where
  offsetDims := []
  collapsedSliceDims := [0, 1]
  operandBatchingDims := []
  startIndicesBatchingDims := []
  startIndexMap := [0, 1]
  indexVectorDim := 2
  sliceSizes := ![1, 1]
  wf := gather_S1000000x1_S8192x200x2_S8192x200_n_01_n_n_01_2_11_wf
def dot_S8192x100_S100x1_S8192x1_1_0_0_1_n_n : DotDims S8192x100 S100x1 S8192x1 where
  lhsContracting := [1]
  rhsContracting := [0]
  lhsNonContracting := [0]
  rhsNonContracting := [1]
  lhsBatch := []
  rhsBatch := []
  wf := dot_S8192x100_S100x1_S8192x1_1_0_0_1_n_n_wf
def gather_S1000000x64_S8192x200x1_S8192x200x64_2_0_n_n_0_2_164 : GatherDims S1000000x64 S8192x200x1 S8192x200x64 where
  offsetDims := [2]
  collapsedSliceDims := [0]
  operandBatchingDims := []
  startIndicesBatchingDims := []
  startIndexMap := [0]
  indexVectorDim := 2
  sliceSizes := ![1, 64]
  wf := gather_S1000000x64_S8192x200x1_S8192x200x64_2_0_n_n_0_2_164_wf

class Facts : Prop extends Facts₀ where

variable [Facts]
-- ==== Proof.Spec.lean ====
/-
  The factorisation-machine score of ONE batch row, as a function on the extended reals, and the one law that
  joins the two ways of summing the squared numeric terms.

  A row has 200 categorical fields, each with a gathered embedding `s f : Fin 64 → EReal` and a gathered
  scalar weight `w f`, and 100 numeric features `x n` with embeddings `V n` and linear weights `u n`.
  With `S e = ∑ f, s f e + ∑ n, x n · V n e` (the sum of all field vectors, coordinate `e`) and
  `Q e = ∑ f, (s f e)² + ∑ n, (x n)² · (V n e)²` (the sum of their squares) the score is

      (∑ f, w f + ∑ n, x n · u n)  +  h · ∑ e, (S e · S e − Q e)  +  β.

  The numeric square term can be summed as `(x n)² · (V n e)²` or as `(x n · V n e)²`; the two agree on
  every extended real, because multiplication there is commutative and associative (no finiteness is needed:
  no product is distributed over a sum).
-/
import Idealize.ShloMosaic.PureOps.Ideal
import Idealize.ShloMosaic.PureOps.Ideal.Laws
import Idealize.ShloMosaic.Lib.ValueIdx

noncomputable section

namespace Cert.FM

open Idealize.ShloMosaic Idealize.ShloMosaic.ValueIdx

/-- The score of one row: first-order term, plus `h` times the second-order interaction, plus the bias. -/
def rowScore (s : Fin 200 → Fin 64 → EReal) (w : Fin 200 → EReal) (x : Fin 100 → EReal)
    (V : Fin 100 → Fin 64 → EReal) (u : Fin 100 → EReal) (β h : EReal) : EReal :=
  ((∑ f : Fin 200, w f) + ∑ n : Fin 100, x n * u n)
    + h * (∑ e : Fin 64,
        (((∑ f : Fin 200, s f e) + ∑ n : Fin 100, x n * V n e) * ((∑ f : Fin 200, s f e) + ∑ n : Fin 100, x n * V n e)
          - ((∑ f : Fin 200, s f e * s f e) + ∑ n : Fin 100, (x n * x n) * (V n e * V n e))))
    + β

/-- The square of a product is the product of the squares, term by term under a sum: on the extended reals
    too, where `*` is commutative and associative. -/
theorem sum_sq_mul {ι : Type*} [Fintype ι] (x v : ι → EReal) :
    ∑ n, (x n * v n) * (x n * v n) = ∑ n, (x n * x n) * (v n * v n) :=
  Finset.sum_congr rfl fun n _ => mul_mul_mul_comm (x n) (v n) (x n) (v n)

/-- The same score written the long way: every sum started from a zero, the linear term summed once more over
    an axis of extent one, and the numeric squares taken of the products `x n · V n e`. -/
theorem rowScore_of_long_form (s : Fin 200 → Fin 64 → EReal) (w : Fin 200 → EReal) (x : Fin 100 → EReal)
    (V : Fin 100 → Fin 64 → EReal) (u : Fin 100 → EReal) (β h : EReal) :
    (((0 + ∑ f : Fin 200, w f) + (0 + ∑ _k : Fin 1, ∑ n : Fin 100, x n * u n))
      + h * (0 + ∑ e : Fin 64,
          (((0 + ∑ f : Fin 200, s f e) + (0 + ∑ n : Fin 100, x n * V n e))
              * ((0 + ∑ f : Fin 200, s f e) + (0 + ∑ n : Fin 100, x n * V n e))
            - ((0 + ∑ f : Fin 200, s f e * s f e) + (0 + ∑ n : Fin 100, (x n * V n e) * (x n * V n e))))))
      + β
    = rowScore s w x V u β h := by
  unfold rowScore
  simp only [zero_add, Finset.univ_unique, Finset.sum_singleton, sum_sq_mul]

/-- The batch row an index of the `[8192, 1]` result lies in. -/
def rowOf (j : (⟨2, ![8192, 1]⟩ : Shape).Idx) : Fin 8192 := ⟨(j 0).val, idx2_lt0 j⟩

/-- THE WHOLE RESULT as one function of the arrays the scores are computed from: the entry in row `b` is the score of
    row `b` — over the gathered embeddings `E : [8192, 200, 64]`, the gathered weights `W : [8192, 200]`, the numeric
    features `X : [8192, 100]`, their embedding table `V : [100, 64]`, their linear weights `u : [100, 1]` and the
    bias `β : [1]`. -/
def scores (E : (⟨3, ![8192, 200, 64]⟩ : Shape).Idx → EReal) (W : (⟨2, ![8192, 200]⟩ : Shape).Idx → EReal)
    (X : (⟨2, ![8192, 100]⟩ : Shape).Idx → EReal) (V : (⟨2, ![100, 64]⟩ : Shape).Idx → EReal)
    (u : (⟨2, ![100, 1]⟩ : Shape).Idx → EReal) (β : (⟨1, ![1]⟩ : Shape).Idx → EReal) (h : EReal) :
    (⟨2, ![8192, 1]⟩ : Shape).Idx → EReal :=
  fun j => rowScore (fun f e => E (ix3 (rowOf j) f e)) (fun f => W (ix2 (rowOf j) f)) (fun n => X (ix2 (rowOf j) n))
    (fun n e => V (ix2 n e)) (fun n => u (ix2 n (0 : Fin 1))) (β (ix1 (0 : Fin 1))) h

end Cert.FM

end
-- ==== Proof.LibAxisSums.lean ====
/-
  Sums along one axis and the column layouts that a row reduction with a kept axis goes through, read at an
  index, for any extents.

  * the sum over the LAST axis of an `[a, b]` array, at row `p`, is `∑ k, src (p, k)`;
  * the sum over the MIDDLE axis of an `[a, b, c]` array, at `(p, e)`, is `∑ k, src (p, k, e)`;
  * a vector `[a]` viewed as the column `[a, 1]` reads, at `(p, q)`, the vector at `p`;
  * a one-element vector `[1]` viewed as `[1, 1]` and broadcast down a column `[a, 1]` reads its one element.
-/
import Idealize.ShloMosaic.PureOps.Ideal.Laws
import Idealize.ShloMosaic.Lib.ValueIdx
import Idealize.ShloMosaic.Lib.Pipeline.Value

noncomputable section

namespace Cert.Lib.AxisSums

open Idealize.ShloMosaic Idealize.ShloMosaic.ValueIdx

variable {φ : FTy}

/-- A float `add` reduction of an `[a, b]` array over its last axis, read at the ideal values: at row `p` it is the
    sum of that row's entries. -/
theorem multiReduction_add_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (funext fun ax => Fin.ext (by
    match ax with
    | ⟨0, _⟩ => rfl
    | ⟨1, _⟩ => rfl))

/-- A float `add` reduction of an `[a, b, c]` array over its middle axis, read at the ideal values: at `(p, e)` it
    is the sum over `k` of the entries `(p, k, e)`. -/
theorem multiReduction_add_mid3 {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (e : Fin c) :
    multiReduction .add [1] ⟨2, ![a, c]⟩ src acc h hφ hacc (ix2 p e) = ∑ k : Fin b, src (ix3 p k e) := by
  refine (Ideal.multiReduction_add_single src acc h hφ hacc (ix2 p e)).trans ?_
  exact Finset.sum_congr rfl fun k _ => congrArg src (funext fun ax => Fin.ext (by
    match ax with
    | ⟨0, _⟩ => rfl
    | ⟨1, _⟩ => rfl
    | ⟨2, _⟩ => rfl))

variable {α : Type}

/-- An `[a]` vector cast to the column `[a, 1]` reads, at `(p, q)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (q : Fin 1) : shapeCast ⟨2, ![a, 1]⟩ x h (ix2 p q) = x (ix1 p) :=
  shapeCast_apply x h _ _ (by
    have hq : q.val = 0 := by omega
    rw [Shape.rowMajor_val_two, Shape.rowMajor_val_one]
    show p.val = p.val * 1 + q.val
    rw [hq, Nat.mul_one, Nat.add_zero])

/-- A one-element vector `[1]` cast to `[1, 1]` reads that element. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  shapeCast_apply x h _ _ (by
    have hu : u.val = 0 := by omega
    have hv : v.val = 0 := by omega
    rw [Shape.rowMajor_val_two, Shape.rowMajor_val_one]
    show (0 : ℕ) = u.val * 1 + v.val
    rw [hu, hv])

/-- A `[1, 1]` array broadcast down the column `[a, 1]` reads its one entry everywhere. -/
theorem broadcastTo_11_a1_apply {a : ℕ} (x : (⟨2, ![1, 1]⟩ : Shape).Idx → α) (h : (⟨2, ![1, 1]⟩ : Shape).Broadcasts ⟨2, ![a, 1]⟩)
    (p : Fin a) (q : Fin 1) : broadcastTo ⟨2, ![a, 1]⟩ x h (ix2 p q) = x (ix2 (0 : Fin 1) (0 : Fin 1)) := by
  refine broadcastTo_apply x h (ix2 p q) (ix2 (0 : Fin 1) (0 : Fin 1)) fun ax => ?_
  match ax with
  | ⟨0, _⟩ => rfl
  | ⟨1, _⟩ => rfl

end Cert.Lib.AxisSums

end
-- ==== Proof.KernelBlock.lean ====
/-
  The body's result at one row of a block.

  A block is 128 rows of the batch. From the blocks it loads — the gathered field embeddings `x0 : [128, 200, 64]`,
  the gathered field weights `x1 : [128, 200]`, the numeric features `x2 : [128, 100]`, their embedding table
  `x3 : [100, 64]`, their linear weights `x4 : [100, 1]` and the bias `x5 : [1]` — the body stores the column
  `[128, 1]` whose entry at row `p` is the factorisation-machine score of that row (`Cert.FM.rowScore`):
  the two lane sums over the 200 fields and the three products with the numeric tables are sums over `f` and over
  `n` at the ideal values, the squares are taken entrywise, and the last lane sum runs over the 64 coordinates.
-/
import proofs.«104339_j45595372814827_1_alg».proof.Proof.Gen.KernelIdeal.Skeleton
import proofs.«104339_j45595372814827_1_alg».proof.Proof.Spec
import proofs.«104339_j45595372814827_1_alg».proof.Proof.LibAxisSums
import Idealize.ShloMosaic.Lib.ValueIdx
import Idealize.ShloMosaic.PureOps.Ideal.Laws

noncomputable section

namespace Cert.KernelIdeal.Score

open Cert.KernelIdeal Cert.KernelIdeal.Gen
open Idealize.ShloMosaic Idealize.ShloMosaic.ValueIdx Cert.Lib.AxisSums

/-! ## The two products with the numeric tables, at an index -/

theorem lhsV_0 (i : S128x64.Idx) (q : dot_S128x100_S100x64_S128x64_1_0_0_1_n_n.contr.Idx) :
    (dot_S128x100_S100x64_S128x64_1_0_0_1_n_n.lhsIdx i q 0).val = (i 0).val := by
  unfold DotDims.lhsIdx
  rw [dif_neg (show ¬(0 : Fin S128x100.rank) ∈ dot_S128x100_S100x64_S128x64_1_0_0_1_n_n.lhsBatch by decide), dif_pos (show (0 : Fin S128x100.rank) ∈ dot_S128x100_S100x64_S128x64_1_0_0_1_n_n.lhsNonContracting by decide)]
  rfl
theorem lhsV_1 (i : S128x64.Idx) (q : dot_S128x100_S100x64_S128x64_1_0_0_1_n_n.contr.Idx) :
    (dot_S128x100_S100x64_S128x64_1_0_0_1_n_n.lhsIdx i q 1).val = (q ⟨0, by decide⟩).val :=
  dot_S128x100_S100x64_S128x64_1_0_0_1_n_n.lhsIdx_val_of_single rfl i q
theorem rhsV_0 (i : S128x64.Idx) (q : dot_S128x100_S100x64_S128x64_1_0_0_1_n_n.contr.Idx) :
    (dot_S128x100_S100x64_S128x64_1_0_0_1_n_n.rhsIdx i q 0).val = (q ⟨0, by decide⟩).val :=
  dot_S128x100_S100x64_S128x64_1_0_0_1_n_n.rhsIdx_val_of_single rfl i q
theorem rhsV_1 (i : S128x64.Idx) (q : dot_S128x100_S100x64_S128x64_1_0_0_1_n_n.contr.Idx) :
    (dot_S128x100_S100x64_S128x64_1_0_0_1_n_n.rhsIdx i q 1).val = (i 1).val := by
  unfold DotDims.rhsIdx
  rw [dif_neg (show ¬(1 : Fin S100x64.rank) ∈ dot_S128x100_S100x64_S128x64_1_0_0_1_n_n.rhsBatch by decide), dif_pos (show (1 : Fin S100x64.rank) ∈ dot_S128x100_S100x64_S128x64_1_0_0_1_n_n.rhsNonContracting by decide)]
  rfl

/-- The product of a `[128, 100]` block with a `[100, 64]` table, accumulated from zero: at `(p, e)` the sum over the
    100 numeric features of row `p`'s entry times the table's entry in column `e`. -/
theorem dotV_apply (l : FVec Ideal S128x100 .f32) (r : FVec Ideal S100x64 .f32) (p : Fin 128) (e : Fin 64) :
    matmul dot_S128x100_S100x64_S128x64_1_0_0_1_n_n none l r (constant (F := Ideal) S128x64 .f32 0x00000000#32) (ix2 p e)
      = ∑ n : Fin 100, l (ix2 p n) * r (ix2 n e) := by
  simp only [matmul]
  rw [Ideal.matmul_constant_zero_apply, ← Equiv.sum_comp (contrEquiv1 dot_S128x100_S100x64_S128x64_1_0_0_1_n_n 100 rfl rfl).symm]
  refine Finset.sum_congr rfl fun k _ => ?_
  have hk := contrEquiv1_symm_val dot_S128x100_S100x64_S128x64_1_0_0_1_n_n 100 rfl rfl k
  have el : dot_S128x100_S100x64_S128x64_1_0_0_1_n_n.lhsIdx (ix2 p e) ((contrEquiv1 dot_S128x100_S100x64_S128x64_1_0_0_1_n_n 100 rfl rfl).symm k) = ix2 p k := funext fun a => Fin.ext (by
    match a with
    | ⟨0, _⟩ => exact lhsV_0 _ _
    | ⟨1, _⟩ => exact (lhsV_1 _ _).trans hk)
  have er : dot_S128x100_S100x64_S128x64_1_0_0_1_n_n.rhsIdx (ix2 p e) ((contrEquiv1 dot_S128x100_S100x64_S128x64_1_0_0_1_n_n 100 rfl rfl).symm k) = ix2 k e := funext fun a => Fin.ext (by
    match a with
    | ⟨0, _⟩ => exact (rhsV_0 _ _).trans hk
    | ⟨1, _⟩ => exact rhsV_1 _ _)
  rw [el, er]

theorem lhsU_0 (i : S128x1.Idx) (q : dot_S128x100_S100x1_S128x1_1_0_0_1_n_n.contr.Idx) :
    (dot_S128x100_S100x1_S128x1_1_0_0_1_n_n.lhsIdx i q 0).val = (i 0).val := by
  unfold DotDims.lhsIdx
  rw [dif_neg (show ¬(0 : Fin S128x100.rank) ∈ dot_S128x100_S100x1_S128x1_1_0_0_1_n_n.lhsBatch by decide), dif_pos (show (0 : Fin S128x100.rank) ∈ dot_S128x100_S100x1_S128x1_1_0_0_1_n_n.lhsNonContracting by decide)]
  rfl
theorem lhsU_1 (i : S128x1.Idx) (q : dot_S128x100_S100x1_S128x1_1_0_0_1_n_n.contr.Idx) :
    (dot_S128x100_S100x1_S128x1_1_0_0_1_n_n.lhsIdx i q 1).val = (q ⟨0, by decide⟩).val :=
  dot_S128x100_S100x1_S128x1_1_0_0_1_n_n.lhsIdx_val_of_single rfl i q
theorem rhsU_0 (i : S128x1.Idx) (q : dot_S128x100_S100x1_S128x1_1_0_0_1_n_n.contr.Idx) :
    (dot_S128x100_S100x1_S128x1_1_0_0_1_n_n.rhsIdx i q 0).val = (q ⟨0, by decide⟩).val :=
  dot_S128x100_S100x1_S128x1_1_0_0_1_n_n.rhsIdx_val_of_single rfl i q
theorem rhsU_1 (i : S128x1.Idx) (q : dot_S128x100_S100x1_S128x1_1_0_0_1_n_n.contr.Idx) :
    (dot_S128x100_S100x1_S128x1_1_0_0_1_n_n.rhsIdx i q 1).val = (i 1).val := by
  unfold DotDims.rhsIdx
  rw [dif_neg (show ¬(1 : Fin S100x1.rank) ∈ dot_S128x100_S100x1_S128x1_1_0_0_1_n_n.rhsBatch by decide), dif_pos (show (1 : Fin S100x1.rank) ∈ dot_S128x100_S100x1_S128x1_1_0_0_1_n_n.rhsNonContracting by decide)]
  rfl

/-- The product of a `[128, 100]` block with the `[100, 1]` column of linear weights, accumulated from zero: at
    `(p, q)` the sum over the numeric features of row `p`'s entry times the weight. -/
theorem dotU_apply (l : FVec Ideal S128x100 .f32) (r : FVec Ideal S100x1 .f32) (p : Fin 128) (q : Fin 1) :
    matmul dot_S128x100_S100x1_S128x1_1_0_0_1_n_n none l r (constant (F := Ideal) S128x1 .f32 0x00000000#32) (ix2 p q)
      = ∑ n : Fin 100, l (ix2 p n) * r (ix2 n q) := by
  simp only [matmul]
  rw [Ideal.matmul_constant_zero_apply, ← Equiv.sum_comp (contrEquiv1 dot_S128x100_S100x1_S128x1_1_0_0_1_n_n 100 rfl rfl).symm]
  refine Finset.sum_congr rfl fun k _ => ?_
  have hk := contrEquiv1_symm_val dot_S128x100_S100x1_S128x1_1_0_0_1_n_n 100 rfl rfl k
  have el : dot_S128x100_S100x1_S128x1_1_0_0_1_n_n.lhsIdx (ix2 p q) ((contrEquiv1 dot_S128x100_S100x1_S128x1_1_0_0_1_n_n 100 rfl rfl).symm k) = ix2 p k := funext fun a => Fin.ext (by
    match a with
    | ⟨0, _⟩ => exact lhsU_0 _ _
    | ⟨1, _⟩ => exact (lhsU_1 _ _).trans hk)
  have er : dot_S128x100_S100x1_S128x1_1_0_0_1_n_n.rhsIdx (ix2 p q) ((contrEquiv1 dot_S128x100_S100x1_S128x1_1_0_0_1_n_n 100 rfl rfl).symm k) = ix2 k q := funext fun a => Fin.ext (by
    match a with
    | ⟨0, _⟩ => exact (rhsU_0 _ _).trans hk
    | ⟨1, _⟩ => exact rhsU_1 _ _)
  rw [el, er]

/-! ## The lane sums and the column layouts, named and read at an index -/

/-- The sum over the 200 fields of a `[128, 200]` block of gathered weights, per row. -/
def weightSum (v : FVec Ideal S128x200 .f32) : FVec Ideal S128 .f32 :=
  multiReduction .add [1] S128 v 0x00000000#32 reduces_S128x200_S128 (.inl rfl) rfl

theorem weightSum_apply (v : FVec Ideal S128x200 .f32) (p : Fin 128) : weightSum v (ix1 p) = ∑ f : Fin 200, v (ix2 p f) :=
  multiReduction_add_last2 v _ _ _ _ p

/-- The sum over the 200 fields of a `[128, 200, 64]` block of gathered embeddings, per row and coordinate. -/
def fieldSum (v : FVec Ideal S128x200x64 .f32) : FVec Ideal S128x64 .f32 :=
  multiReduction .add [1] S128x64 v 0x00000000#32 reduces_S128x200x64_S128x64 (.inl rfl) rfl

theorem fieldSum_apply (v : FVec Ideal S128x200x64 .f32) (p : Fin 128) (e : Fin 64) :
    fieldSum v (ix2 p e) = ∑ f : Fin 200, v (ix3 p f e) :=
  multiReduction_add_mid3 v _ _ _ _ p e

/-- The sum over the 64 coordinates of a `[128, 64]` block, per row. -/
def coordSum (v : FVec Ideal S128x64 .f32) : FVec Ideal S128 .f32 :=
  multiReduction .add [1] S128 v 0x00000000#32 reduces_S128x64_S128 (.inl rfl) rfl

theorem coordSum_apply (v : FVec Ideal S128x64 .f32) (p : Fin 128) : coordSum v (ix1 p) = ∑ e : Fin 64, v (ix2 p e) :=
  multiReduction_add_last2 v _ _ _ _ p

/-- A per-row vector laid out as the column the body stores. -/
def col (v : FVec Ideal S128 .f32) : FVec Ideal S128x1 .f32 := shapeCast S128x1 v shapeCasts_S128_S128x1

theorem col_apply (v : FVec Ideal S128 .f32) (p : Fin 128) (q : Fin 1) : col v (ix2 p q) = v (ix1 p) :=
  shapeCast_a_a1_apply v _ p q

/-- The bias, a one-element vector, laid down the column. -/
def biasCol (v : Vec Ideal S1 .f32) : FVec Ideal S128x1 .f32 :=
  broadcastTo S128x1 (shapeCast S1x1 v shapeCasts_S1_S1x1) broadcasts_S1x1_S128x1

theorem biasCol_apply (v : Vec Ideal S1 .f32) (p : Fin 128) (q : Fin 1) : biasCol v (ix2 p q) = v (ix1 (0 : Fin 1)) :=
  (broadcastTo_11_a1_apply _ _ p q).trans (shapeCast_1_11_apply v _ 0 0)

/-- The numeric features against a `[100, 64]` table. -/
def numDot (l : FVec Ideal S128x100 .f32) (r : FVec Ideal S100x64 .f32) : FVec Ideal S128x64 .f32 :=
  matmul dot_S128x100_S100x64_S128x64_1_0_0_1_n_n none l r (constant (F := Ideal) S128x64 .f32 0x00000000#32)

theorem numDot_apply (l : FVec Ideal S128x100 .f32) (r : FVec Ideal S100x64 .f32) (p : Fin 128) (e : Fin 64) :
    numDot l r (ix2 p e) = ∑ n : Fin 100, l (ix2 p n) * r (ix2 n e) := dotV_apply l r p e

/-- The numeric features against the column of linear weights. -/
def linDot (l : FVec Ideal S128x100 .f32) (r : FVec Ideal S100x1 .f32) : FVec Ideal S128x1 .f32 :=
  matmul dot_S128x100_S100x1_S128x1_1_0_0_1_n_n none l r (constant (F := Ideal) S128x1 .f32 0x00000000#32)

theorem linDot_apply (l : FVec Ideal S128x100 .f32) (r : FVec Ideal S100x1 .f32) (p : Fin 128) (q : Fin 1) :
    linDot l r (ix2 p q) = ∑ n : Fin 100, l (ix2 p n) * r (ix2 n q) := dotU_apply l r p q

/-! ## The payload -/

/-- The body's stored value, as the composition of the pieces above: first-order column, plus one half of the
    coordinate sum of `S · S − Q`, plus the bias column. -/
theorem pay_eq (x0 : Vec Ideal S128x200x64 .f32) (x1 : Vec Ideal S128x200 .f32) (x2 : Vec Ideal S128x100 .f32)
    (x3 : Vec Ideal S100x64 .f32) (x4 : Vec Ideal S100x1 .f32) (x5 : Vec Ideal S1 .f32) :
    k0_pay1 (F := Ideal) x0 x1 x2 x3 x4 x5
      = addf (addf (addf (col (weightSum x1)) (linDot x2 x4))
            (mulf (broadcast S128x1 (Scalar.ofBits (F := Ideal) .f32 0x3F000000#32))
              (col (coordSum (subf
                (mulf (addf (fieldSum x0) (numDot x2 x3)) (addf (fieldSum x0) (numDot x2 x3)))
                (addf (fieldSum (mulf x0 x0)) (numDot (mulf x2 x2) (mulf x3 x3))))))))
          (biasCol x5) := by
  unfold k0_pay1
  simp only [shapeCast_self]
  rfl

/-- THE BODY'S STORED VALUE at row `p` of the block is the score of that row, over the rows of the loaded blocks. -/
theorem pay_apply (x0 : Vec Ideal S128x200x64 .f32) (x1 : Vec Ideal S128x200 .f32) (x2 : Vec Ideal S128x100 .f32)
    (x3 : Vec Ideal S100x64 .f32) (x4 : Vec Ideal S100x1 .f32) (x5 : Vec Ideal S1 .f32) (p : Fin 128) (q : Fin 1) :
    k0_pay1 (F := Ideal) x0 x1 x2 x3 x4 x5 (ix2 p q)
      = Cert.FM.rowScore (fun f e => x0 (ix3 p f e)) (fun f => x1 (ix2 p f)) (fun n => x2 (ix2 p n))
          (fun n e => x3 (ix2 n e)) (fun n => x4 (ix2 n (0 : Fin 1))) (x5 (ix1 (0 : Fin 1)))
          (Ideal.ofBits .f32 0x3F000000#32) := by
  obtain rfl : q = 0 := Subsingleton.elim _ _
  rw [pay_eq]
  unfold Cert.FM.rowScore
  simp only [addf_apply, mulf_apply, subf_apply, broadcast_apply, col_apply, biasCol_apply, weightSum_apply,
    fieldSum_apply, coordSum_apply, numDot_apply, linDot_apply]
  rfl

end Cert.KernelIdeal.Score

end
-- ==== Proof.KernelValue.lean ====
/-
  From blocks to the whole result.

  Grid point `t` (of 64) handles batch rows `128·t … 128·t + 127`: the three batch-indexed windows move with the
  output, block `t` of each, and the two numeric tables and the bias are the same whole arrays at every point. So what
  point `t` writes back is rows `128·t …` of ONE function of the arrays the region finds, `Cert.FM.scores`; the 64
  blocks tile the `[8192, 1]` result (row `r` lies in block `r / 128`), hence the array ends holding that function.
-/
import proofs.«104339_j45595372814827_1_alg».proof.Proof.Gen.KernelIdeal.Value
import proofs.«104339_j45595372814827_1_alg».proof.Proof.KernelBlock

noncomputable section

namespace Cert.KernelIdeal.Score

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem off1 : (![0] : Fin 1 → Nat) = fun _ => 0 := funext fun a => by fin_cases a <;> rfl
theorem off2 : (![0, 0] : Fin 2 → Nat) = fun _ => 0 := funext fun a => by fin_cases a <;> rfl
theorem off3 : (![0, 0, 0] : Fin 3 → Nat) = fun _ => 0 := funext fun a => by fin_cases a <;> rfl

/-- The factor in front of the second-order term: the literal one half, kept as its pattern. -/
abbrev half : EReal := Ideal.ofBits .f32 0x3F000000#32

/-- The printed index maps over the grid: the batch-indexed windows (embeddings, weights, numeric features, result)
    are at block `t` on the batch axis and block 0 elsewhere; the tables and the bias are always at block 0. -/
theorem block_index : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The arrays the scores are computed from, as the region finds them. -/
abbrev result (c : Dev nD) : S8192x1.Idx → EReal :=
  Cert.FM.scores (V m c main_v9) (V m c main_v20) (V m c main_v2) (V m c main_arg4) (V m c main_arg2) (V m c main_arg5) half

/-- WHAT POINT `t` WRITES BACK is block `t` of the scores. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero off2]
  simp only [View.ld_unit_zero (S := S128x200x64) off3, View.ld_unit_zero (S := S128x200) off2,
    View.ld_unit_zero (S := S128x100) off2, View.ld_unit_zero (S := S100x64) off2, View.ld_unit_zero (S := S100x1) off2,
    View.ld_unit_zero (S := S1) off1]
  obtain ⟨a00, a01, a02, a10, a11, a20, a21, a30, a31, a40, a41, a50, a60, a61⟩ := block_index t
  funext y
  obtain ⟨p, q, rfl⟩ : ∃ (p : Fin 128) (q : Fin 1), y = ix2 p q := ⟨y 0, y 1, eq_ix2 y⟩
  have hp : p.val < 128 := p.isLt
  have hq : q.val < 1 := q.isLt
  show k0_pay1 (F := Ideal) (iblk m c 0 t) (iblk m c 1 t) (iblk m c 2 t) (iblk m c 3 t) (iblk m c 4 t) (iblk m c 5 t) (ix2 p q)
    = result m c (((cfg0.win 6).blk t).view.emb (ix2 p q))
  refine (pay_apply (iblk m c 0 t) (iblk m c 1 t) (iblk m c 2 t) (iblk m c 3 t) (iblk m c 4 t) (iblk m c 5 t) p q).trans ?_
  -- the row of the result this entry lies in
  have hrow : (Cert.FM.rowOf (((cfg0.win 6).blk t).view.emb (ix2 p q))).val = t.val * 128 + p.val := by
    show win0_6.index t (0 : Fin 2) * 128 + 1 * p.val = _
    omega
  have e0 : (fun (f : Fin 200) (e : Fin 64) => iblk m c 0 t (ix3 p f e))
      = fun f e => V m c main_v9 (ix3 (Cert.FM.rowOf (((cfg0.win 6).blk t).view.emb (ix2 p q))) f e) :=
    funext fun f => funext fun e => by
      show V m c main_v9 (((cfg0.win 0).blk t).view.emb (ix3 p f e)) = _
      refine congrArg _ (funext fun a => Fin.ext ?_)
      match a with
      | ⟨0, _⟩ => show win0_0.index t (0 : Fin 3) * 128 + 1 * p.val = (Cert.FM.rowOf _).val; omega
      | ⟨1, _⟩ => show win0_0.index t (1 : Fin 3) * 200 + 1 * f.val = f.val; omega
      | ⟨2, _⟩ => show win0_0.index t (2 : Fin 3) * 64 + 1 * e.val = e.val; omega
  have e1 : (fun (f : Fin 200) => iblk m c 1 t (ix2 p f))
      = fun f => V m c main_v20 (ix2 (Cert.FM.rowOf (((cfg0.win 6).blk t).view.emb (ix2 p q))) f) :=
    funext fun f => by
      show V m c main_v20 (((cfg0.win 1).blk t).view.emb (ix2 p f)) = _
      refine congrArg _ (funext fun a => Fin.ext ?_)
      match a with
      | ⟨0, _⟩ => show win0_1.index t (0 : Fin 2) * 128 + 1 * p.val = (Cert.FM.rowOf _).val; omega
      | ⟨1, _⟩ => show win0_1.index t (1 : Fin 2) * 200 + 1 * f.val = f.val; omega
  have e2 : (fun (n : Fin 100) => iblk m c 2 t (ix2 p n))
      = fun n => V m c main_v2 (ix2 (Cert.FM.rowOf (((cfg0.win 6).blk t).view.emb (ix2 p q))) n) :=
    funext fun n => by
      show V m c main_v2 (((cfg0.win 2).blk t).view.emb (ix2 p n)) = _
      refine congrArg _ (funext fun a => Fin.ext ?_)
      match a with
      | ⟨0, _⟩ => show win0_2.index t (0 : Fin 2) * 128 + 1 * p.val = (Cert.FM.rowOf _).val; omega
      | ⟨1, _⟩ => show win0_2.index t (1 : Fin 2) * 100 + 1 * n.val = n.val; omega
  have e3 : (fun (n : Fin 100) (e : Fin 64) => iblk m c 3 t (ix2 n e)) = fun n e => V m c main_arg4 (ix2 n e) :=
    funext fun n => funext fun e => by
      show V m c main_arg4 (((cfg0.win 3).blk t).view.emb (ix2 n e)) = _
      refine congrArg _ (funext fun a => Fin.ext ?_)
      match a with
      | ⟨0, _⟩ => show win0_3.index t (0 : Fin 2) * 100 + 1 * n.val = n.val; omega
      | ⟨1, _⟩ => show win0_3.index t (1 : Fin 2) * 64 + 1 * e.val = e.val; omega
  have e4 : (fun (n : Fin 100) => iblk m c 4 t (ix2 n (0 : Fin 1))) = fun n => V m c main_arg2 (ix2 n (0 : Fin 1)) :=
    funext fun n => by
      show V m c main_arg2 (((cfg0.win 4).blk t).view.emb (ix2 n (0 : Fin 1))) = _
      refine congrArg _ (funext fun a => Fin.ext ?_)
      match a with
      | ⟨0, _⟩ => show win0_4.index t (0 : Fin 2) * 100 + 1 * n.val = n.val; omega
      | ⟨1, _⟩ => show win0_4.index t (1 : Fin 2) * 1 + 1 * 0 = 0; omega
  have e5 : iblk m c 5 t (ix1 (0 : Fin 1)) = V m c main_arg5 (ix1 (0 : Fin 1)) := by
    show V m c main_arg5 (((cfg0.win 5).blk t).view.emb (ix1 (0 : Fin 1))) = _
    refine congrArg _ (funext fun a => Fin.ext ?_)
    match a with
    | ⟨0, _⟩ => show win0_5.index t (0 : Fin 1) * 1 + 1 * 0 = 0; omega
  rw [e0, e1, e2, e3, e4, e5]
  rfl

/-- An index of the result is in point `t`'s block iff each coordinate is in the block's range on its axis. -/
theorem mem_block (t : Fin cfg0.N) (i : S8192x1.Idx) :
    i ∈ ((cfg0.win 6).blk t).view.set ↔ ∀ a : Fin 2, win0_6.index t a * S128x1.size a ≤ (i a).val ∧ (i a).val < win0_6.index t a * S128x1.size a + S128x1.size a := by
  show i ∈ ((View.whole main_v21).slice (win0_6.rect t)).set ↔ _
  rw [View.set_slice_whole, Rect.mem_set_unit]
  exact Iff.rfl

/-- Every entry of the result is written by some point: row `r` by point `r / 128`. -/
theorem covered (i : S8192x1.Idx) : ∃ t : Fin cfg0.N, (cfg0.win 6).flush t = true ∧ i ∈ ((cfg0.win 6).blk t).view.set := by
  have hi0 : (i 0).val < 8192 := (i 0).isLt
  have hi1 : (i 1).val < 1 := (i 1).isLt
  have hN : grid0.N = 64 := N_0
  obtain ⟨t, ht⟩ : ∃ t : Fin cfg0.N, t.val = (i 0).val / 128 := ⟨⟨(i 0).val / 128, by show _ < grid0.N; omega⟩, rfl⟩
  obtain ⟨-, -, -, -, -, -, -, -, -, -, -, -, a60, a61⟩ := block_index t
  refine ⟨t, flush0_6 t, ?_⟩
  rw [mem_block]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 1 ≤ (i 1).val ∧ (i 1).val < win0_6.index t (1 : Fin 2) * 1 + 1; omega

/-- THE RESULT ARRAY after the run is the scores of the arrays the region found. -/
theorem final (c : Dev nD) : (dats m 0 c).arrAt 6 cfg0.N = result m c :=
  (dats m 0 c).arrAt_eq_of_cover 6 (result m c) (fun t _ => flushed_eq m c t) covered

/-- The kernel's run, read: it terminates with the result at the scores and the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Score

end
-- ==== Proof.Found.lean ====
/-
  What the region finds: the arrays its batch-indexed windows stage are computed by the host operations before it —
  the indices are the first 200 columns of the input converted to integers (a negative one moved up by the table's
  extent), the embeddings and the scalar weights are gathered at them, and the numeric features are the last 100
  columns. These are the very stages the reference computes from the same arguments: the same operations, in the
  same order, over the same shapes.
-/
import proofs.«104339_j45595372814827_1_alg».proof.Proof.Gen.KernelIdeal.Frame
import proofs.«104339_j45595372814827_1_alg».proof.Proof.Gen.ReferenceIdeal.Read
import Idealize.ShloMosaic.Lib.StableHlo.Run

noncomputable section

namespace Cert.KernelIdeal.Score

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The gathered embeddings the region finds are the reference's gathered embeddings of the same arguments. -/
theorem found_emb (c : Dev nD) :
    (V m c main_v9 : S8192x200x64.Idx → EReal)
      = Cert.ReferenceIdeal.Read.val_main_v24 (F := Ideal) (m ((c : Thread nD τ).loc main_arg0)) (m ((c : Thread nD τ).loc main_arg3)) := by
  dsimp only [Gen.V, Gen.hostOps0]
  after_results_simp
  rfl

/-- The gathered scalar weights the region finds are the reference's. -/
theorem found_weight (c : Dev nD) :
    (V m c main_v20 : S8192x200.Idx → EReal)
      = Cert.ReferenceIdeal.Read.val_main_v13 (F := Ideal) (m ((c : Thread nD τ).loc main_arg0)) (m ((c : Thread nD τ).loc main_arg1)) := by
  dsimp only [Gen.V, Gen.hostOps0]
  after_results_simp
  rfl

/-- The numeric features the region finds are the reference's slice of the input. -/
theorem found_num (c : Dev nD) :
    (V m c main_v2 : S8192x100.Idx → EReal)
      = Cert.ReferenceIdeal.Read.val_main_v2 (F := Ideal) (m ((c : Thread nD τ).loc main_arg0)) := by
  dsimp only [Gen.V, Gen.hostOps0]
  after_results_simp
  rfl

end Cert.KernelIdeal.Score

end
-- ==== Proof.RefRow.lean ====
/-
  The reference's result, one row at a time.

  Read one operation at a time, the reference computes for batch row `b` the sums over the 200 gathered
  fields, the sums over the 100 numeric features of the products `x n · V n e` and of their squares, the
  linear term (a product with the weight column, then summed once more over an axis of extent one), and
  `h · ∑ e, (S e · S e − Q e)` plus the bias — every sum started from the zero constant. That is the row's
  factorisation-machine score (`Cert.FM.rowScore`) of the gathered embeddings, the gathered weights and the
  numeric slice, the squares of products regrouped by `Cert.FM.sum_sq_mul`.
-/
import proofs.«104339_j45595372814827_1_alg».proof.Proof.Gen.ReferenceIdeal.Read
import proofs.«104339_j45595372814827_1_alg».proof.Proof.Spec

noncomputable section

namespace Cert.ReferenceIdeal.Score

open Cert.ReferenceIdeal Cert.ReferenceIdeal.Gen Cert.ReferenceIdeal.Read
open Idealize.ShloMosaic Idealize.ShloMosaic.ValueIdx

/-! ## Which entry each stage reads, for row `b` -/

variable (b : Fin 8192) (q : Fin 1)

theorem ix_weight (f : Fin 200) : idx_main_v14 (idx_main_v47 (ix2 b q)) f = ix2 b f :=
  funext fun a => Fin.ext (by match a with | ⟨0, _⟩ => rfl | ⟨1, _⟩ => rfl)

theorem ix_lin_l (k : Fin 1) (n : Fin 100) : lidx_main_v15 (idx_main_v16 (idx_main_v47 (ix2 b q)) k) n = ix2 b n :=
  funext fun a => Fin.ext (by match a with | ⟨0, _⟩ => rfl | ⟨1, _⟩ => rfl)

theorem ix_lin_r (k : Fin 1) (n : Fin 100) : ridx_main_v15 (idx_main_v16 (idx_main_v47 (ix2 b q)) k) n = ix2 n (0 : Fin 1) :=
  funext fun a => Fin.ext (by
    match a with
    | ⟨0, _⟩ => rfl
    | ⟨1, _⟩ => show k.val = 0; omega)

theorem ix_emb (e : Fin 64) (f : Fin 200) : idx_main_v30 (idx_main_v40 (idx_main_v47 (ix2 b q)) e) f = ix3 b f e :=
  funext fun a => Fin.ext (by match a with | ⟨0, _⟩ => rfl | ⟨1, _⟩ => rfl | ⟨2, _⟩ => rfl)

theorem ix_emb_sq (e : Fin 64) (f : Fin 200) : idx_main_v34 (idx_main_v40 (idx_main_v47 (ix2 b q)) e) f = ix3 b f e :=
  funext fun a => Fin.ext (by match a with | ⟨0, _⟩ => rfl | ⟨1, _⟩ => rfl | ⟨2, _⟩ => rfl)

theorem ix_num (e : Fin 64) (n : Fin 100) :
    idx_main_v25 (idx_main_v27 (idx_main_v31 (idx_main_v40 (idx_main_v47 (ix2 b q)) e) n)) = ix2 b n :=
  funext fun a => Fin.ext (by match a with | ⟨0, _⟩ => rfl | ⟨1, _⟩ => rfl)

theorem ix_tab (e : Fin 64) (n : Fin 100) :
    idx_main_v26 (idx_main_v28 (idx_main_v31 (idx_main_v40 (idx_main_v47 (ix2 b q)) e) n)) = ix2 n e :=
  funext fun a => Fin.ext (by match a with | ⟨0, _⟩ => rfl | ⟨1, _⟩ => rfl)

theorem ix_num_sq (e : Fin 64) (n : Fin 100) :
    idx_main_v25 (idx_main_v27 (idx_main_v36 (idx_main_v40 (idx_main_v47 (ix2 b q)) e) n)) = ix2 b n :=
  funext fun a => Fin.ext (by match a with | ⟨0, _⟩ => rfl | ⟨1, _⟩ => rfl)

theorem ix_tab_sq (e : Fin 64) (n : Fin 100) :
    idx_main_v26 (idx_main_v28 (idx_main_v36 (idx_main_v40 (idx_main_v47 (ix2 b q)) e) n)) = ix2 n e :=
  funext fun a => Fin.ext (by match a with | ⟨0, _⟩ => rfl | ⟨1, _⟩ => rfl)

/-- The bias, reshaped from one element to a scalar, is that element. -/
theorem bias_read (x5 : (⟨S1, .f32⟩ : BufTy).Contents (Elt Ideal)) (j : S_.Idx) :
    val_main_v44 (F := Ideal) x5 j = x5 (ix1 (0 : Fin 1)) := by
  unfold val_main_v44
  refine shapeCast_apply x5 shapeCasts_S1_S_ j (ix1 (0 : Fin 1)) ?_
  have h0 : (S_.rowMajor j).val < S_.numel := (S_.rowMajor j).isLt
  have h1 : S_.numel = 1 := rfl
  rw [Shape.rowMajor_val_one]
  show (0 : ℕ) = _
  omega

/-! ## The row -/

/-- THE REFERENCE'S RESULT at row `b` is the score of that row, over the gathered embeddings `val_main_v24`, the
    gathered weights `val_main_v13` and the numeric slice `val_main_v2` of the arguments. -/
theorem ref_apply (x0 : (⟨S8192x300, .f32⟩ : BufTy).Contents (Elt Ideal)) (x1 : (⟨S1000000x1, .f32⟩ : BufTy).Contents (Elt Ideal))
    (x2 : (⟨S100x1, .f32⟩ : BufTy).Contents (Elt Ideal)) (x3 : (⟨S1000000x64, .f32⟩ : BufTy).Contents (Elt Ideal))
    (x4 : (⟨S100x64, .f32⟩ : BufTy).Contents (Elt Ideal)) (x5 : (⟨S1, .f32⟩ : BufTy).Contents (Elt Ideal)) :
    val_main_v47 (F := Ideal) x0 x1 x2 x3 x4 x5 (ix2 b q)
      = Cert.FM.rowScore (fun f e => val_main_v24 (F := Ideal) x0 x3 (ix3 b f e)) (fun f => val_main_v13 (F := Ideal) x0 x1 (ix2 b f))
          (fun n => val_main_v2 (F := Ideal) x0 (ix2 b n)) (fun n e => x4 (ix2 n e)) (fun n => x2 (ix2 n (0 : Fin 1)))
          (x5 (ix1 (0 : Fin 1))) (Ideal.ofBits .f32 0x3F000000#32) := by
  rw [← Cert.FM.rowScore_of_long_form]
  simp only [val_main_v47_apply, val_main_v46_apply, val_main_v45_apply, bias_read, val_main_v43_apply, val_main_v42_apply,
    val_main_v41_apply, val_main_cst_10_apply, val_main_v40_apply, val_main_cst_9_apply, val_main_v39_apply, val_main_v38_apply,
    val_main_v37_apply, val_main_v36_apply, val_main_cst_8_apply, val_main_v35_apply, val_main_v34_apply, val_main_cst_7_apply,
    val_main_v33_apply, val_main_v32_apply, val_main_v31_apply, val_main_cst_6_apply, val_main_v30_apply, val_main_cst_5_apply,
    val_main_v29_apply, val_main_v28_apply, val_main_v27_apply, val_main_v26_apply, val_main_v25_apply,
    val_main_v17_apply, val_main_v16_apply, val_main_cst_2_apply, val_main_v15_apply, val_main_v14_apply, val_main_cst_apply,
    ix_weight, ix_lin_l, ix_lin_r, ix_emb, ix_emb_sq, ix_num, ix_tab, ix_num_sq, ix_tab_sq,
    Ideal.addf_def, Ideal.mulf_def, Ideal.subf_def, Ideal.ofBits_def, Ideal.ofBits_zero_f32]

/-- THE REFERENCE'S WHOLE RESULT is the scores of its own stages: the gathered embeddings, the gathered weights and the
    numeric slice, with the tables and the bias as given. -/
theorem ref_scores (x0 : (⟨S8192x300, .f32⟩ : BufTy).Contents (Elt Ideal)) (x1 : (⟨S1000000x1, .f32⟩ : BufTy).Contents (Elt Ideal))
    (x2 : (⟨S100x1, .f32⟩ : BufTy).Contents (Elt Ideal)) (x3 : (⟨S1000000x64, .f32⟩ : BufTy).Contents (Elt Ideal))
    (x4 : (⟨S100x64, .f32⟩ : BufTy).Contents (Elt Ideal)) (x5 : (⟨S1, .f32⟩ : BufTy).Contents (Elt Ideal)) :
    val_main_v47 (F := Ideal) x0 x1 x2 x3 x4 x5
      = Cert.FM.scores (val_main_v24 (F := Ideal) x0 x3) (val_main_v13 (F := Ideal) x0 x1) (val_main_v2 (F := Ideal) x0) x4 x2 x5
          (Ideal.ofBits .f32 0x3F000000#32) := by
  funext j
  obtain ⟨b, q, rfl⟩ : ∃ (b : Fin 8192) (q : Fin 1), j = ix2 b q := ⟨j 0, j 1, eq_ix2 j⟩
  exact ref_apply b q x0 x1 x2 x3 x4 x5

end Cert.ReferenceIdeal.Score

end
-- ==== Proof.lean ====
/-
  The factorisation-machine layer: a kernel over 64 blocks of 128 batch rows against its reference.

  Both programs first turn the first 200 columns of the input into table indices and gather, per batch row, 200
  embedding vectors (64 coordinates each) and 200 scalar weights; the last 100 columns are numeric features with their
  own embedding table and linear weights. With `S e` the sum of a row's 300 field vectors at coordinate `e` and `Q e`
  the sum of their squares, the result at row `b` is

      (∑ f, w f + ∑ n, x n · u n)  +  ½ · ∑ e, (S e · S e − Q e)  +  β.

  The kernel computes it block by block: lane sums over the fields, and the numeric contributions as three products
  with the tables (`x · V`, `x² · V²`, `x · u`), all exact sums at the ideal values. The reference forms the products
  `x n · V n e` entrywise and sums them and their squares. The two agree on every extended real: the only law used
  beyond re-reading each operation is `(a·b)·(a·b) = (a·a)·(b·b)`, which needs no finiteness, so the precondition
  is never opened.

  * `Spec`: the row's score and the whole result as one function (`Cert.FM.rowScore`, `Cert.FM.scores`), and the law.
  * `KernelBlock`: the body's stored value at a row of a block is that row's score.
  * `KernelValue`: point `t` writes rows `128·t …`, the 64 blocks tile the result, so the result array is `scores`.
  * `Found`: the arrays the kernel's region finds are the reference's own stages of the same arguments.
  * `RefRow`: the reference's result is `scores` of those stages.
-/
import proofs.«104339_j45595372814827_1_alg».proof.Defs
import proofs.«104339_j45595372814827_1_alg».proof.Proof.Gen.Kernel
import proofs.«104339_j45595372814827_1_alg».proof.Proof.Gen.Kernel.Frame
import proofs.«104339_j45595372814827_1_alg».proof.Proof.Gen.KernelIdeal
import proofs.«104339_j45595372814827_1_alg».proof.Proof.Gen.KernelIdeal.Frame
import proofs.«104339_j45595372814827_1_alg».proof.Proof.Gen.KernelIdeal.Value
import proofs.«104339_j45595372814827_1_alg».proof.Proof.Gen.ReferenceIdeal
import proofs.«104339_j45595372814827_1_alg».proof.Proof.Gen.ReferenceIdeal.Run
import proofs.«104339_j45595372814827_1_alg».proof.Proof.Gen.ReferenceIdeal.Read
import proofs.«104339_j45595372814827_1_alg».proof.Proof.Gen.Pre_finite_inputs
import proofs.«104339_j45595372814827_1_alg».proof.Proof.KernelValue
import proofs.«104339_j45595372814827_1_alg».proof.Proof.Found
import proofs.«104339_j45595372814827_1_alg».proof.Proof.RefRow
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the scores of the same gathered embeddings,
    gathered weights and numeric features. -/
theorem algebraic : Cert.algebraic_KernelIdeal_ReferenceIdeal := by
  intro m ρ m' ρ' _ hagree
  refine ⟨fun c => Cert.KernelIdeal.Score.result m c, Cert.KernelIdeal.Score.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v47_eq, Cert.ReferenceIdeal.Score.ref_scores, h0, h1, h2, h3, h4, h5]
  show _ = Cert.FM.scores (Cert.KernelIdeal.Gen.V m c Cert.KernelIdeal.main_v9) (Cert.KernelIdeal.Gen.V m c Cert.KernelIdeal.main_v20)
    (Cert.KernelIdeal.Gen.V m c Cert.KernelIdeal.main_v2) (Cert.KernelIdeal.Gen.V m c Cert.KernelIdeal.main_arg4)
    (Cert.KernelIdeal.Gen.V m c Cert.KernelIdeal.main_arg2) (Cert.KernelIdeal.Gen.V m c Cert.KernelIdeal.main_arg5) _
  rw [Cert.KernelIdeal.Score.found_emb, Cert.KernelIdeal.Score.found_weight, Cert.KernelIdeal.Score.found_num,
    Cert.KernelIdeal.Gen.V_main_arg4, Cert.KernelIdeal.Gen.V_main_arg2, Cert.KernelIdeal.Gen.V_main_arg5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
